-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32x2 .f32) (main_arg9 : FVec F S2 .f32) (main_v33 : IVec S_ 1) : IVec S_ 1 :=
  let main_v34 : FVec F S32x2 .f32 := Host.absf main_arg8
  let main_cst_12 : FVec F S_ .f32 := constant S_ .f32 0x7F800000#32
  let main_v35 : FVec F S32x2 .f32 := broadcastInDim S32x2 ![] bcast_S_S32x2 main_cst_12
  let main_v36 : IVec S32x2 1 := cmpf .olt main_v34 main_v35
  let main_c_13 : IVec S_ 1 := constantI S_ 1 1#1
  let main_v37 : IVec S_ 1 := (fun x v => Host.reduce IntOp.andi x v reducesTo_S32x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x2 .f32) (main_arg9 : FVec F S2 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x32 .f32) (main_arg5 : FVec F S32 .f32) (main_arg6 : FVec F S32x32 .f32) (main_arg7 : FVec F S32 .f32) (main_arg8 : FVec F S32x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S5000x64 : Shape := ⟨2, ![5000, 64]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S1x32 : Shape := ⟨2, ![1, 32]⟩
abbrev S1x2 : Shape := ⟨2, ![1, 2]⟩
abbrev S100000x2 : Shape := ⟨2, ![100000, 2]⟩
abbrev S5000x2 : Shape := ⟨2, ![5000, 2]⟩
abbrev S5000x32 : Shape := ⟨2, ![5000, 32]⟩

abbrev nBuf : Space → Nat
  | .hbm => 65
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S100000x64, .f32⟩
  | .hbm, ⟨18, _⟩ => ⟨S_, .f32⟩
  | .hbm, ⟨19, _⟩ => ⟨S1300000, .f32⟩
  | .hbm, ⟨20, _⟩ => ⟨S_, .f32⟩
  | .hbm, ⟨21, _⟩ => ⟨S100000, .f32⟩
  | .hbm, ⟨22, _⟩ => ⟨S1300000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1300000, .i32⟩
  | .hbm, ⟨27, _⟩ => ⟨S1300000, .i1⟩
  | .hbm, ⟨28, _⟩ => ⟨S_, .i32⟩
  | .hbm, ⟨29, _⟩ => ⟨S1300000, .i32⟩
  | .hbm, ⟨30, _⟩ => ⟨S1300000, .i32⟩
  | .hbm, ⟨31, _⟩ => ⟨S1300000, .i32⟩
  | .hbm, ⟨32, _⟩ => ⟨S1300000x1, .i32⟩
  | .hbm, ⟨33, _⟩ => ⟨S1300000, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000, .f32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .f32⟩
  | .hbm, ⟨53, _⟩ => ⟨S1300000x1, .f32⟩
  | .hbm, ⟨54, _⟩ => ⟨S1300000x64, .f32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S1x64, .f32⟩
  | .hbm, ⟨61, _⟩ => ⟨S1x32, .f32⟩
  | .hbm, ⟨62, _⟩ => ⟨S1x32, .f32⟩
  | .hbm, ⟨63, _⟩ => ⟨S1x2, .f32⟩
  | .hbm, ⟨64, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S64x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S32x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S32_S1x32 : S32.ShapeCasts S1x32
  shapeCasts_S2_S1x2 : S2.ShapeCasts S1x2
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x64_S64x64_S5000x64_1_0_0_1_n_n_wf : DotDims.WF S5000x64 S64x64 S5000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  dot_S5000x32_S32x2_S5000x2_1_0_0_1_n_n_wf : DotDims.WF S5000x32 S32x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x2.size a ≤ S32x2.size a
  hwx1_7 : ∀ i : grid1.Coords, EltTy.bits .f32 = 32 ∨ (Rect.block (s := S32x2) S32x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x2.size a ≤ S100000x2.size a
  hwx1_9 : ∀ i : grid1.Coords, EltTy.bits .f32 = 32 ∨ (Rect.block (s := S100000x2) S5000x2.size (cc1_transform_9 i) (hinb1_9 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v45) S5000x2.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x32 : Shape := ⟨2, ![100000, 32]⟩
abbrev S1x32 : Shape := ⟨2, ![1, 32]⟩
abbrev S100000x2 : Shape := ⟨2, ![100000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S100000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S1x1200000, .i32⟩
  | .hbm, ⟨15, _⟩ => ⟨S1200000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1300000, .i32⟩
  | .hbm, ⟨26, _⟩ => ⟨S1300000, .i1⟩
  | .hbm, ⟨27, _⟩ => ⟨S_, .i32⟩
  | .hbm, ⟨28, _⟩ => ⟨S1300000, .i32⟩
  | .hbm, ⟨29, _⟩ => ⟨S1300000, .i32⟩
  | .hbm, ⟨30, _⟩ => ⟨S1300000, .i32⟩
  | .hbm, ⟨31, _⟩ => ⟨S1300000x1, .i32⟩
  | .hbm, ⟨32, _⟩ => ⟨S1300000, .f32⟩
  | .hbm, ⟨33, _⟩ => ⟨S_, .i32⟩
  | .hbm, ⟨34, _⟩ => ⟨S1300000, .i32⟩
  | .hbm, ⟨35, _⟩ => ⟨S1300000, .i1⟩
  | .hbm, ⟨36, _⟩ => ⟨S_, .i32⟩
  | .hbm, ⟨37, _⟩ => ⟨S1300000, .i32⟩
  | .hbm, ⟨38, _⟩ => ⟨S1300000, .i32⟩
  | .hbm, ⟨39, _⟩ => ⟨S1300000, .i32⟩
  | .hbm, ⟨40, _⟩ => ⟨S1300000x1, .i32⟩
  | .hbm, ⟨41, _⟩ => ⟨S1300000, .f32⟩
  | .hbm, ⟨42, _⟩ => ⟨S1300000, .f32⟩
  | .hbm, ⟨43, _⟩ => ⟨S100000x64, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .f32⟩
  | .hbm, ⟨53, _⟩ => ⟨S1300000x1, .f32⟩
  | .hbm, ⟨54, _⟩ => ⟨S1300000x64, .f32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .f32⟩
  | .hbm, ⟨72, _⟩ => ⟨S100000x32, .f32⟩
  | .hbm, ⟨73, _⟩ => ⟨S100000x32, .f32⟩
  | .hbm, ⟨74, _⟩ => ⟨S100000x32, .f32⟩
  | .hbm, ⟨75, _⟩ => ⟨S1x32, .f32⟩
  | .hbm, ⟨76, _⟩ => ⟨S100000x32, .f32⟩
  | .hbm, ⟨77, _⟩ => ⟨S100000x32, .f32⟩
  | .hbm, ⟨78, _⟩ => ⟨S_, .f32⟩
  | .hbm, ⟨79, _⟩ => ⟨S100000x32, .f32⟩
  | .hbm, ⟨80, _⟩ => ⟨S100000x32, .f32⟩
  | .hbm, ⟨81, _⟩ => ⟨S100000x2, .f32⟩
  | .hbm, ⟨82, _⟩ => ⟨S1x2, .f32⟩
  | .hbm, ⟨83, _⟩ => ⟨S100000x2, .f32⟩
  | .hbm, ⟨84, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf

class Facts : Prop extends Facts₀ where

variable [Facts]
-- ==== Proof.LibPlainDot.lean ====
/-
  A plain rows-by-columns matrix product read at an index, at the ideal instance.

  For dimension numbers over three rank-2 shapes [M, K] · [K, N] → [M, N] whose operand indices are the plain ones
  — the left operand is read at (row of the result, contraction position), the right at (contraction position,
  column of the result) — the contraction's sum at the result index (p, q) is the textbook sum over k of
  a (p, k) · b (k, q). The four axis facts are hypotheses, so the statements are general in the record and in
  the three extents; a `tpu.matmul` into the zero accumulator reduces to this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction's sum of a plain product at the result index (p, q) is the sum over k of a (p, k) · b (k, q):
    the one-axis contraction index is re-indexed by its coordinate, and the two operand indices are identified
    coordinate by coordinate from the four axis facts. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (a : (⟨2, ![M, K]⟩ : Shape).Idx → EReal) (b : (⟨2, ![K, N]⟩ : Shape).Idx → EReal) (p : Fin M) (q : Fin N) :
    ∑ k : D.contr.Idx, a (D.lhsIdx (ix2 p q) k) * b (D.rhsIdx (ix2 p q) k) = ∑ k : Fin K, a (ix2 p k) * b (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact l0 _ _
    | ⟨1, _⟩ => exact (l1 _ _).trans hk)
  have er : D.rhsIdx (ix2 p q) ((contrEquiv1 D K hr hs).symm k) = ix2 k q := funext fun x => Fin.ext (by
    match x with
    | ⟨0, _⟩ => exact (r0 _ _).trans hk
    | ⟨1, _⟩ => exact r1 _ _)
  rw [el, er]

/-- A `tpu.matmul` with plain dimension numbers into the zero accumulator, at the result index (p, q), is the sum
    over k of a (p, k) · b (k, q) on the extended reals. -/
theorem matmul_zero_plain {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision)
    (a : FVec Ideal (⟨2, ![M, K]⟩ : Shape) φ₁) (b : FVec Ideal (⟨2, ![K, N]⟩ : Shape) φ₂) (p : Fin M) (q : Fin N) :
    matmul D prec a b (constant (⟨2, ![M, N]⟩ : Shape) .f32 0x00000000#32) (ix2 p q)
      = ∑ k : Fin K, a (ix2 p k) * b (ix2 k q) :=
  (Ideal.matmul_constant_zero_apply D prec a b (ix2 p q)).trans (sum_plain D hr hs l0 l1 r0 r1 a b p q)

end Idealize.ShloMosaic.PlainDot

end
-- ==== Proof.Spec.lean ====
/-
  The mathematics both programs compute, one node (one row) at a time, on the extended reals.

  A graph-convolution layer followed by a residual and a three-layer perceptron. With h = X · W_g the projected
  features and agg the normalised neighbourhood sum of h (a function of h and of the edge list only, the same
  host operations in both programs), the result at node r and output channel j is

      dense₃ (relu (dense₂ (relu (dense₁ (relu (agg r + b_g) + X r)))))  at j,

  where denseᵢ a = a · Wᵢ + bᵢ is a row times a matrix plus a bias row and relu v = max v 0. The sums are the
  exact sums of extended reals; no law beyond the definitions is used, so finiteness of the inputs plays no part.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr (a b : Nat) := (⟨2, ![a, b]⟩ : Shape).Idx → EReal

/-- A rank-2 array from a function of its two coordinates. -/
def arr2 {a b : Nat} (f : Fin a → Fin b → EReal) : Arr a b := fun i => f (i 0) (i 1)

theorem arr2_ix2 {a b : Nat} (f : Fin a → Fin b → EReal) (p : Fin a) (q : Fin b) : arr2 f (ix2 p q) = f p q := rfl

/-- The rectifier on the extended reals. -/
def relu (v : EReal) : EReal := max v 0

/-- A row times a matrix, at column j. -/
def rowMul {K N : Nat} (a : Fin K → EReal) (W : Arr K N) (j : Fin N) : EReal := ∑ k : Fin K, a k * W (ix2 k j)

/-- A dense layer on one row: the row times the weights plus the bias, at column j. -/
def dense {K N : Nat} (a : Fin K → EReal) (W : Arr K N) (b : Fin N → EReal) (j : Fin N) : EReal := rowMul a W j + b j

/-- The projected features X · W_g. -/
def proj (x : Arr 100000 64) (w : Arr 64 64) : Arr 100000 64 := arr2 fun r j => rowMul (fun k => x (ix2 r k)) w j

/-- One node's update: rectified aggregate plus bias, the residual, then the three dense layers. -/
def node (agg x bg : Fin 64 → EReal) (W1 : Arr 64 32) (b1 : Fin 32 → EReal) (W2 : Arr 32 32) (b2 : Fin 32 → EReal)
    (W3 : Arr 32 2) (b3 : Fin 2 → EReal) (j : Fin 2) : EReal :=
  dense (fun k3 => relu (dense (fun k2 => relu (dense (fun k1 => relu (agg k1 + bg k1) + x k1) W1 b1 k2)) W2 b2 k3)) W3 b3 j

/-- The whole result from the aggregate, the features and the weights. -/
def result (agg x : Arr 100000 64) (bg : Fin 64 → EReal) (W1 : Arr 64 32) (b1 : Fin 32 → EReal) (W2 : Arr 32 32)
    (b2 : Fin 32 → EReal) (W3 : Arr 32 2) (b3 : Fin 2 → EReal) : Arr 100000 2 :=
  arr2 fun r j => node (fun k => agg (ix2 r k)) (fun k => x (ix2 r k)) bg W1 b1 W2 b2 W3 b3 j

end Cert.Spec

end
-- ==== Proof.Region0.lean ====
/-
  The first kernel region: the projected features h = X · W_g.

  Each of the twenty grid points loads a block of 5000 rows of X and the whole of W_g, multiplies them (the format
  changes are the identity on extended reals; the accumulator is zero) and stores the product as the same 5000 rows
  of the result. Read at an index, a block's element (p, q) is the sum over k of X (5000 t + p, k) · W_g (k, q), which
  is element (5000 t + p, q) of X · W_g; the twenty blocks tile the 100000 rows, so after the region the result array
  IS X · W_g of the arrays the region found. Stated at a parameter `V`, the buffer contents at the region's entry.
-/
import proofs.«116313_j12884901888485_1_alg».proof.Proof.Gen.KernelIdeal.Frame
import proofs.«116313_j12884901888485_1_alg».proof.Proof.LibPlainDot
import proofs.«116313_j12884901888485_1_alg».proof.Proof.Spec
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The features and the weights as the region finds them, at their literal types. -/
abbrev xarr (c : Dev nD) : S100000x64.Idx → EReal := V c main_arg0
abbrev warr (c : Dev nD) : S64x64.Idx → EReal := V c main_arg2

theorem hz : (![0, 0] : Fin 2 → Nat) = fun _ => 0 := funext fun a => by fin_cases a <;> rfl

theorem l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem pay_apply (v0 : Vec Ideal S5000x64 .f32) (v2 : Vec Ideal S64x64 .f32) (p : Fin 5000) (q : Fin 64) :
    k0_pay1 v0 v2 (ix2 p q) = ∑ k : Fin 64, v0 (ix2 p k) * v2 (ix2 k q) := by
  unfold k0_pay1
  exact PlainDot.matmul_zero_plain dot_S5000x64_S64x64_S5000x64_1_0_0_1_n_n rfl rfl l0 l1 r0 r1 none _ _ p q

/-- The printed index maps over the grid: the features' block moves with the result's block down the rows, every
    other block index is zero. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (Cert.Spec.proj (xarr V c) (warr V c)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  have hj0 : (j 0).val < 5000 := (j 0).isLt
  have hj1 : (j 1).val < 64 := (j 1).isLt
  obtain ⟨p, hp⟩ : ∃ p : Fin 5000, p.val = (j 0).val := ⟨⟨_, hj0⟩, rfl⟩
  obtain ⟨q, hq⟩ : ∃ q : Fin 64, q.val = (j 1).val := ⟨⟨_, hj1⟩, rfl⟩
  have e : (win0 2).xinj (grid0.coords t) j = ix2 p q := funext fun a => Fin.ext (by
    match a with
    | ⟨0, _⟩ => exact hp.symm
    | ⟨1, _⟩ => exact hq.symm)
  show k0_pay1 (iblk0 V c 0 t) (iblk0 V c 1 t) ((win0 2).xinj (grid0.coords t) j) = _
  rw [e, pay_apply]
  obtain ⟨e0, e1, e2, e3, e4⟩ := idx_facts t
  show ∑ k : Fin 64, xarr V c (((cfg0.win 0).blk t).view.emb (ix2 p k)) * warr V c (((cfg0.win 1).blk t).view.emb (ix2 k q))
    = ∑ k : Fin 64, xarr V c (ix2 (((cfg0.win 2).blk t).view.emb j 0) k) * warr V c (ix2 k (((cfg0.win 2).blk t).view.emb j 1))
  refine Finset.sum_congr rfl fun k _ => ?_
  have h0 : ((cfg0.win 0).blk t).view.emb (ix2 p k) = ix2 (((cfg0.win 2).blk t).view.emb j 0) k := by
    funext a; apply Fin.ext
    match a with
    | ⟨0, _⟩ => show win0_0.index t (0 : Fin 2) * 5000 + 1 * p.val = win0_2.index t (0 : Fin 2) * 5000 + 1 * (j 0).val; rw [e0, hp]
    | ⟨1, _⟩ => show win0_0.index t (1 : Fin 2) * 64 + 1 * k.val = k.val; rw [e1]; omega
  have h1 : ((cfg0.win 1).blk t).view.emb (ix2 k q) = ix2 k (((cfg0.win 2).blk t).view.emb j 1) := by
    funext a; apply Fin.ext
    match a with
    | ⟨0, _⟩ => show win0_1.index t (0 : Fin 2) * 64 + 1 * k.val = k.val; rw [e2]; omega
    | ⟨1, _⟩ => show win0_1.index t (1 : Fin 2) * 64 + 1 * q.val = win0_2.index t (1 : Fin 2) * 64 + 1 * (j 1).val; rw [e3, e4, hq]
  rw [h0, h1]
  rfl

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v7).slice (win0_2.rect t)).set ↔ _
  rw [View.set_slice_whole, Rect.mem_set_unit]
  exact Iff.rfl

/-- The result's block index at a point is (the point's number, 0). -/
theorem idx_out : ∀ t : Fin cfg0.N, win0_2.index t (0 : Fin 2) = t.val ∧ win0_2.index t (1 : Fin 2) = 0 :=
  (by decide +kernel : ∀ t : Fin grid0.N, _)

/-- The twenty row blocks tile the array: row r lies in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_2 _, ?_⟩
  rw [mem_blk]
  obtain ⟨f0, f1⟩ := idx_out ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [f1]; omega

/-- After the first region the projected features' array holds X · W_g of the arrays the region found. -/
theorem final (c : Dev nD) : (dat0 V c).arrAt 2 cfg0.N = Cert.Spec.proj (xarr V c) (warr V c) :=
  (dat0 V c).arrAt_eq_of_cover 2 _ (fun t _ => flushed_eq V c t) cover

end Cert.KernelIdeal.Region0

end
-- ==== Proof.Region1.lean ====
/-
  The second kernel region: the residual and the three-layer perceptron, one block of 5000 nodes per grid point.

  A point loads rows 5000 t … 5000 t + 4999 of the aggregate and of the features, and the whole of the bias rows
  and weight matrices; its body computes, for each of its rows, relu (agg + b_g) + x, then two rectified dense
  layers and one plain dense layer (each matrix product a sum over the contracted axis on the extended reals, the
  format changes the identity), and stores the 5000 × 2 result as the same rows of the output. Read at an index,
  element (p, j) of a block is the node update of row 5000 t + p; the twenty blocks tile the 100000 rows, so after
  the region the output array holds every node's update. Stated at a parameter `V`, the buffer contents at the
  region's entry.
-/
import proofs.«116313_j12884901888485_1_alg».proof.Proof.Gen.KernelIdeal.Frame
import proofs.«116313_j12884901888485_1_alg».proof.Proof.LibPlainDot
import proofs.«116313_j12884901888485_1_alg».proof.Proof.Spec
import Idealize.ShloMosaic.Lib.Pipeline.Value
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The three matrix products' operand indices -/

theorem d1_l0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem d1_l1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
theorem d1_r0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem d1_r1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem d2_l0 (i : S5000x32.Idx) (q : dot_S5000x32_S32x32_S5000x32_1_0_0_1_n_n.contr.Idx) : (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem d2_l1 (i : S5000x32.Idx) (q : dot_S5000x32_S32x32_S5000x32_1_0_0_1_n_n.contr.Idx) : (dot_S5000x32_S32x32_S5000x32_1_0_0_1_n_n.lhsIdx i q 1).val = (q ⟨0, by decide⟩).val :=
  dot_S5000x32_S32x32_S5000x32_1_0_0_1_n_n.lhsIdx_val_of_single rfl i q
theorem d2_r0 (i : S5000x32.Idx) (q : dot_S5000x32_S32x32_S5000x32_1_0_0_1_n_n.contr.Idx) : (dot_S5000x32_S32x32_S5000x32_1_0_0_1_n_n.rhsIdx i q 0).val = (q ⟨0, by decide⟩).val :=
  dot_S5000x32_S32x32_S5000x32_1_0_0_1_n_n.rhsIdx_val_of_single rfl i q
theorem d2_r1 (i : S5000x32.Idx) (q : dot_S5000x32_S32x32_S5000x32_1_0_0_1_n_n.contr.Idx) : (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

theorem d3_l0 (i : S5000x2.Idx) (q : dot_S5000x32_S32x2_S5000x2_1_0_0_1_n_n.contr.Idx) : (dot_S5000x32_S32x2_S5000x2_1_0_0_1_n_n.lhsIdx i q 0).val = (i 0).val := by
  unfold DotDims.lhsIdx
  rw [dif_neg (show ¬(0 : Fin S5000x32.rank) ∈ dot_S5000x32_S32x2_S5000x2_1_0_0_1_n_n.lhsBatch by decide), dif_pos (show (0 : Fin S5000x32.rank) ∈ dot_S5000x32_S32x2_S5000x2_1_0_0_1_n_n.lhsNonContracting by decide)]
  rfl
theorem d3_l1 (i : S5000x2.Idx) (q : dot_S5000x32_S32x2_S5000x2_1_0_0_1_n_n.contr.Idx) : (dot_S5000x32_S32x2_S5000x2_1_0_0_1_n_n.lhsIdx i q 1).val = (q ⟨0, by decide⟩).val :=
  dot_S5000x32_S32x2_S5000x2_1_0_0_1_n_n.lhsIdx_val_of_single rfl i q
theorem d3_r0 (i : S5000x2.Idx) (q : dot_S5000x32_S32x2_S5000x2_1_0_0_1_n_n.contr.Idx) : (dot_S5000x32_S32x2_S5000x2_1_0_0_1_n_n.rhsIdx i q 0).val = (q ⟨0, by decide⟩).val :=
  dot_S5000x32_S32x2_S5000x2_1_0_0_1_n_n.rhsIdx_val_of_single rfl i q
theorem d3_r1 (i : S5000x2.Idx) (q : dot_S5000x32_S32x2_S5000x2_1_0_0_1_n_n.contr.Idx) : (dot_S5000x32_S32x2_S5000x2_1_0_0_1_n_n.rhsIdx i q 1).val = (i 1).val := by
  unfold DotDims.rhsIdx
  rw [dif_neg (show ¬(1 : Fin S32x2.rank) ∈ dot_S5000x32_S32x2_S5000x2_1_0_0_1_n_n.rhsBatch by decide), dif_pos (show (1 : Fin S32x2.rank) ∈ dot_S5000x32_S32x2_S5000x2_1_0_0_1_n_n.rhsNonContracting by decide)]
  rfl

/-! ## The body's arithmetic, layer by layer, at an index -/

/-- The perceptron's input row: the rectified aggregate-plus-bias, plus the residual. -/
theorem in_apply (v0 v8 : Vec Ideal S5000x64 .f32) (v2 : Vec Ideal S1x64 .f32) (p : Fin 5000) (k : Fin 64) :
    addf (F := Ideal) (φ := .f32) (maximumf (F := Ideal) (φ := .f32) (addf (F := Ideal) (φ := .f32) (shapeCast S5000x64 v0 shapeCasts_S5000x64_S5000x64)
        (broadcastTo S5000x64 (shapeCast S1x64 v2 shapeCasts_S1x64_S1x64) broadcasts_S1x64_S5000x64))
      (broadcast S5000x64 (Scalar.ofBits (F := Ideal) .f32 0x00000000#32))) v8 (ix2 p k)
      = Cert.Spec.relu (v0 (ix2 p k) + v2 (ix2 (0 : Fin 1) k)) + v8 (ix2 p k) := by
  rw [shapeCast_self, shapeCast_self]
  show max (v0 (ix2 p k) + broadcastTo S5000x64 v2 broadcasts_S1x64_S5000x64 (ix2 p k)) (Ideal.ofBits .f32 0x00000000#32) + v8 (ix2 p k) = _
  rw [broadcastTo_1b_ab_apply, Ideal.ofBits_zero_f32]
  rfl

/-- A hidden layer on a block: at (p, j) the rectified dense layer of row p. -/
theorem hid1_apply (a : FVec Ideal S5000x64 .f32) (W : Vec Ideal S64x32 .f32) (b : Vec Ideal S1x32 .f32) (p : Fin 5000) (j : Fin 32) :
    maximumf (addf (matmul dot_S5000x64_S64x32_S5000x32_1_0_0_1_n_n none (truncf .bf16 a bitsLt_bf16_f32) (truncf .bf16 W bitsLt_bf16_f32) (constant S5000x32 .f32 0x00000000#32))
        (broadcastTo S5000x32 (shapeCast S1x32 b shapeCasts_S1x32_S1x32) broadcasts_S1x32_S5000x32))
      (broadcast S5000x32 (Scalar.ofBits .f32 0x00000000#32)) (ix2 p j)
      = Cert.Spec.relu (Cert.Spec.dense (fun k => a (ix2 p k)) W (fun k => b (ix2 (0 : Fin 1) k)) j) := by
  rw [shapeCast_self]
  show max (matmul dot_S5000x64_S64x32_S5000x32_1_0_0_1_n_n none (truncf .bf16 a bitsLt_bf16_f32) (truncf .bf16 W bitsLt_bf16_f32) (constant S5000x32 .f32 0x00000000#32) (ix2 p j)
      + broadcastTo S5000x32 b broadcasts_S1x32_S5000x32 (ix2 p j)) (Ideal.ofBits .f32 0x00000000#32) = _
  rw [PlainDot.matmul_zero_plain dot_S5000x64_S64x32_S5000x32_1_0_0_1_n_n rfl rfl d1_l0 d1_l1 d1_r0 d1_r1, broadcastTo_1b_ab_apply, Ideal.ofBits_zero_f32]
  rfl

theorem hid2_apply (a : FVec Ideal S5000x32 .f32) (W : Vec Ideal S32x32 .f32) (b : Vec Ideal S1x32 .f32) (p : Fin 5000) (j : Fin 32) :
    maximumf (addf (matmul dot_S5000x32_S32x32_S5000x32_1_0_0_1_n_n none (truncf .bf16 a bitsLt_bf16_f32) (truncf .bf16 W bitsLt_bf16_f32) (constant S5000x32 .f32 0x00000000#32))
        (broadcastTo S5000x32 (shapeCast S1x32 b shapeCasts_S1x32_S1x32) broadcasts_S1x32_S5000x32))
      (broadcast S5000x32 (Scalar.ofBits .f32 0x00000000#32)) (ix2 p j)
      = Cert.Spec.relu (Cert.Spec.dense (fun k => a (ix2 p k)) W (fun k => b (ix2 (0 : Fin 1) k)) j) := by
  rw [shapeCast_self]
  show max (matmul dot_S5000x32_S32x32_S5000x32_1_0_0_1_n_n none (truncf .bf16 a bitsLt_bf16_f32) (truncf .bf16 W bitsLt_bf16_f32) (constant S5000x32 .f32 0x00000000#32) (ix2 p j)
      + broadcastTo S5000x32 b broadcasts_S1x32_S5000x32 (ix2 p j)) (Ideal.ofBits .f32 0x00000000#32) = _
  rw [PlainDot.matmul_zero_plain dot_S5000x32_S32x32_S5000x32_1_0_0_1_n_n rfl rfl d2_l0 d2_l1 d2_r0 d2_r1, broadcastTo_1b_ab_apply, Ideal.ofBits_zero_f32]
  rfl

/-- The output layer on a block: at (p, j) the dense layer of row p, no rectifier. -/
theorem out_apply (a : FVec Ideal S5000x32 .f32) (W : Vec Ideal S32x2 .f32) (b : Vec Ideal S1x2 .f32) (p : Fin 5000) (j : Fin 2) :
    addf (matmul dot_S5000x32_S32x2_S5000x2_1_0_0_1_n_n none (truncf .bf16 a bitsLt_bf16_f32) (truncf .bf16 W bitsLt_bf16_f32) (constant S5000x2 .f32 0x00000000#32))
        (broadcastTo S5000x2 (shapeCast S1x2 b shapeCasts_S1x2_S1x2) broadcasts_S1x2_S5000x2) (ix2 p j)
      = Cert.Spec.dense (fun k => a (ix2 p k)) W (fun k => b (ix2 (0 : Fin 1) k)) j := by
  rw [shapeCast_self]
  show matmul dot_S5000x32_S32x2_S5000x2_1_0_0_1_n_n none (truncf .bf16 a bitsLt_bf16_f32) (truncf .bf16 W bitsLt_bf16_f32) (constant S5000x2 .f32 0x00000000#32) (ix2 p j)
      + broadcastTo S5000x2 b broadcasts_S1x2_S5000x2 (ix2 p j) = _
  rw [PlainDot.matmul_zero_plain dot_S5000x32_S32x2_S5000x2_1_0_0_1_n_n rfl rfl d3_l0 d3_l1 d3_r0 d3_r1, broadcastTo_1b_ab_apply]
  rfl

/-- The whole payload at (p, j): one node's update from row p of the aggregate and feature blocks. -/
theorem pay_apply (v0 : Vec Ideal S5000x64 .f32) (v2 : Vec Ideal S1x64 .f32) (v8 : Vec Ideal S5000x64 .f32) (v11 : Vec Ideal S64x32 .f32)
    (v14 : Vec Ideal S1x32 .f32) (v21 : Vec Ideal S32x32 .f32) (v24 : Vec Ideal S1x32 .f32) (v31 : Vec Ideal S32x2 .f32)
    (v34 : Vec Ideal S1x2 .f32) (p : Fin 5000) (j : Fin 2) :
    k1_pay1 (k1_pay2 v0 v2 v8 v11 v14 v21 v24 v31) v34 (ix2 p j)
      = Cert.Spec.node (fun k => v0 (ix2 p k)) (fun k => v8 (ix2 p k)) (fun k => v2 (ix2 (0 : Fin 1) k)) v11
          (fun k => v14 (ix2 (0 : Fin 1) k)) v21 (fun k => v24 (ix2 (0 : Fin 1) k)) v31 (fun k => v34 (ix2 (0 : Fin 1) k)) j := by
  unfold k1_pay1 k1_pay2
  refine (out_apply _ v31 v34 p j).trans ?_
  unfold Cert.Spec.node
  refine congrArg (fun f => Cert.Spec.dense f v31 (fun k => v34 (ix2 (0 : Fin 1) k)) j) (funext fun k3 => ?_)
  refine (hid2_apply _ v21 v24 p k3).trans ?_
  refine congrArg (fun f => Cert.Spec.relu (Cert.Spec.dense f v21 (fun k => v24 (ix2 (0 : Fin 1) k)) k3)) (funext fun k2 => ?_)
  refine (hid1_apply _ v11 v14 p k2).trans ?_
  refine congrArg (fun f => Cert.Spec.relu (Cert.Spec.dense f v11 (fun k => v14 (ix2 (0 : Fin 1) k)) k2)) (funext fun k1 => ?_)
  exact in_apply v0 v8 v2 p k1

/-! ## The arrays the region finds and the blocks a point loads, at their literal types -/

variable (V : (c : Dev nD) → (b : Ref sig .tc) → Buf (Elt Ideal) ((c : Thread nD τ).loc b))

abbrev aggA (c : Dev nD) : S100000x64.Idx → EReal := V c main_v40
abbrev bgA (c : Dev nD) : S1x64.Idx → EReal := V c main_v41
abbrev xA (c : Dev nD) : S100000x64.Idx → EReal := V c main_arg0
abbrev w1A (c : Dev nD) : S64x32.Idx → EReal := V c main_arg4
abbrev b1A (c : Dev nD) : S1x32.Idx → EReal := V c main_v42
abbrev w2A (c : Dev nD) : S32x32.Idx → EReal := V c main_arg6
abbrev b2A (c : Dev nD) : S1x32.Idx → EReal := V c main_v43
abbrev w3A (c : Dev nD) : S32x2.Idx → EReal := V c main_arg8
abbrev b3A (c : Dev nD) : S1x2.Idx → EReal := V c main_v44
abbrev blkAgg (c : Dev nD) (t : Fin cfg1.N) : S5000x64.Idx → EReal := iblk1 V c 0 t
abbrev blkBg (c : Dev nD) (t : Fin cfg1.N) : S1x64.Idx → EReal := iblk1 V c 1 t
abbrev blkX (c : Dev nD) (t : Fin cfg1.N) : S5000x64.Idx → EReal := iblk1 V c 2 t
abbrev blkW1 (c : Dev nD) (t : Fin cfg1.N) : S64x32.Idx → EReal := iblk1 V c 3 t
abbrev blkB1 (c : Dev nD) (t : Fin cfg1.N) : S1x32.Idx → EReal := iblk1 V c 4 t
abbrev blkW2 (c : Dev nD) (t : Fin cfg1.N) : S32x32.Idx → EReal := iblk1 V c 5 t
abbrev blkB2 (c : Dev nD) (t : Fin cfg1.N) : S1x32.Idx → EReal := iblk1 V c 6 t
abbrev blkW3 (c : Dev nD) (t : Fin cfg1.N) : S32x2.Idx → EReal := iblk1 V c 7 t
abbrev blkB3 (c : Dev nD) (t : Fin cfg1.N) : S1x2.Idx → EReal := iblk1 V c 8 t

/-- The printed index maps over the grid: the aggregate's, the features' and the result's blocks move together down
    the rows (block t at point t); every other window stays on its one block. -/
theorem idx_facts : ∀ t : Fin cfg1.N, win1_9.index t (0 : Fin 2) = t.val
    ∧ win1_9.index t (1 : Fin 2) = 0
    ∧ win1_0.index t (0 : Fin 2) = win1_9.index t (0 : Fin 2)
    ∧ win1_0.index t (1 : Fin 2) = 0
    ∧ win1_2.index t (0 : Fin 2) = win1_9.index t (0 : Fin 2)
    ∧ win1_2.index t (1 : Fin 2) = 0
    ∧ win1_1.index t (0 : Fin 2) = 0
    ∧ win1_1.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Window 1 stays on its one block, which is the whole array. -/
theorem blkBg_eq (c : Dev nD) (t : Fin cfg1.N) : blkBg V c t = bgA V c := by
  obtain ⟨o0, o1, a0, a1, x0, x1, c1_0, c1_1, c3_0, c3_1, c4_0, c4_1, c5_0, c5_1, c6_0, c6_1, c7_0, c7_1, c8_0, c8_1⟩ := idx_facts t
  funext y
  show bgA V c (((cfg1.win 1).blk t).view.emb y) = bgA V c y
  refine congrArg _ (funext fun a => Fin.ext ?_)
  match a with
  | ⟨0, _⟩ => show win1_1.index t (0 : Fin 2) * 1 + 1 * (y 0).val = (y 0).val; rw [c1_0]; omega
  | ⟨1, _⟩ => show win1_1.index t (1 : Fin 2) * 64 + 1 * (y 1).val = (y 1).val; rw [c1_1]; omega

/-- Window 3 stays on its one block, which is the whole array. -/
theorem blkW1_eq (c : Dev nD) (t : Fin cfg1.N) : blkW1 V c t = w1A V c := by
  obtain ⟨o0, o1, a0, a1, x0, x1, c1_0, c1_1, c3_0, c3_1, c4_0, c4_1, c5_0, c5_1, c6_0, c6_1, c7_0, c7_1, c8_0, c8_1⟩ := idx_facts t
  funext y
  show w1A V c (((cfg1.win 3).blk t).view.emb y) = w1A V c y
  refine congrArg _ (funext fun a => Fin.ext ?_)
  match a with
  | ⟨0, _⟩ => show win1_3.index t (0 : Fin 2) * 64 + 1 * (y 0).val = (y 0).val; rw [c3_0]; omega
  | ⟨1, _⟩ => show win1_3.index t (1 : Fin 2) * 32 + 1 * (y 1).val = (y 1).val; rw [c3_1]; omega

/-- Window 4 stays on its one block, which is the whole array. -/
theorem blkB1_eq (c : Dev nD) (t : Fin cfg1.N) : blkB1 V c t = b1A V c := by
  obtain ⟨o0, o1, a0, a1, x0, x1, c1_0, c1_1, c3_0, c3_1, c4_0, c4_1, c5_0, c5_1, c6_0, c6_1, c7_0, c7_1, c8_0, c8_1⟩ := idx_facts t
  funext y
  show b1A V c (((cfg1.win 4).blk t).view.emb y) = b1A V c y
  refine congrArg _ (funext fun a => Fin.ext ?_)
  match a with
  | ⟨0, _⟩ => show win1_4.index t (0 : Fin 2) * 1 + 1 * (y 0).val = (y 0).val; rw [c4_0]; omega
  | ⟨1, _⟩ => show win1_4.index t (1 : Fin 2) * 32 + 1 * (y 1).val = (y 1).val; rw [c4_1]; omega

/-- Window 5 stays on its one block, which is the whole array. -/
theorem blkW2_eq (c : Dev nD) (t : Fin cfg1.N) : blkW2 V c t = w2A V c := by
  obtain ⟨o0, o1, a0, a1, x0, x1, c1_0, c1_1, c3_0, c3_1, c4_0, c4_1, c5_0, c5_1, c6_0, c6_1, c7_0, c7_1, c8_0, c8_1⟩ := idx_facts t
  funext y
  show w2A V c (((cfg1.win 5).blk t).view.emb y) = w2A V c y
  refine congrArg _ (funext fun a => Fin.ext ?_)
  match a with
  | ⟨0, _⟩ => show win1_5.index t (0 : Fin 2) * 32 + 1 * (y 0).val = (y 0).val; rw [c5_0]; omega
  | ⟨1, _⟩ => show win1_5.index t (1 : Fin 2) * 32 + 1 * (y 1).val = (y 1).val; rw [c5_1]; omega

/-- Window 6 stays on its one block, which is the whole array. -/
theorem blkB2_eq (c : Dev nD) (t : Fin cfg1.N) : blkB2 V c t = b2A V c := by
  obtain ⟨o0, o1, a0, a1, x0, x1, c1_0, c1_1, c3_0, c3_1, c4_0, c4_1, c5_0, c5_1, c6_0, c6_1, c7_0, c7_1, c8_0, c8_1⟩ := idx_facts t
  funext y
  show b2A V c (((cfg1.win 6).blk t).view.emb y) = b2A V c y
  refine congrArg _ (funext fun a => Fin.ext ?_)
  match a with
  | ⟨0, _⟩ => show win1_6.index t (0 : Fin 2) * 1 + 1 * (y 0).val = (y 0).val; rw [c6_0]; omega
  | ⟨1, _⟩ => show win1_6.index t (1 : Fin 2) * 32 + 1 * (y 1).val = (y 1).val; rw [c6_1]; omega

/-- Window 7 stays on its one block, which is the whole array. -/
theorem blkW3_eq (c : Dev nD) (t : Fin cfg1.N) : blkW3 V c t = w3A V c := by
  obtain ⟨o0, o1, a0, a1, x0, x1, c1_0, c1_1, c3_0, c3_1, c4_0, c4_1, c5_0, c5_1, c6_0, c6_1, c7_0, c7_1, c8_0, c8_1⟩ := idx_facts t
  funext y
  show w3A V c (((cfg1.win 7).blk t).view.emb y) = w3A V c y
  refine congrArg _ (funext fun a => Fin.ext ?_)
  match a with
  | ⟨0, _⟩ => show win1_7.index t (0 : Fin 2) * 32 + 1 * (y 0).val = (y 0).val; rw [c7_0]; omega
  | ⟨1, _⟩ => show win1_7.index t (1 : Fin 2) * 2 + 1 * (y 1).val = (y 1).val; rw [c7_1]; omega

/-- Window 8 stays on its one block, which is the whole array. -/
theorem blkB3_eq (c : Dev nD) (t : Fin cfg1.N) : blkB3 V c t = b3A V c := by
  obtain ⟨o0, o1, a0, a1, x0, x1, c1_0, c1_1, c3_0, c3_1, c4_0, c4_1, c5_0, c5_1, c6_0, c6_1, c7_0, c7_1, c8_0, c8_1⟩ := idx_facts t
  funext y
  show b3A V c (((cfg1.win 8).blk t).view.emb y) = b3A V c y
  refine congrArg _ (funext fun a => Fin.ext ?_)
  match a with
  | ⟨0, _⟩ => show win1_8.index t (0 : Fin 2) * 1 + 1 * (y 0).val = (y 0).val; rw [c8_0]; omega
  | ⟨1, _⟩ => show win1_8.index t (1 : Fin 2) * 2 + 1 * (y 1).val = (y 1).val; rw [c8_1]; omega

/-- Row p of the block at point t is row (block index) · 5000 + p of the array. -/
theorem agg_row (c : Dev nD) (t : Fin cfg1.N) (p : Fin 5000) (r : Fin 100000)
    (hr : r.val = win1_9.index t (0 : Fin 2) * 5000 + p.val) :
    (fun k : Fin 64 => blkAgg V c t (ix2 p k)) = fun k => aggA V c (ix2 r k) := by
  obtain ⟨o0, o1, a0, a1, x0, x1, c1_0, c1_1, c3_0, c3_1, c4_0, c4_1, c5_0, c5_1, c6_0, c6_1, c7_0, c7_1, c8_0, c8_1⟩ := idx_facts t
  funext k
  show aggA V c (((cfg1.win 0).blk t).view.emb (ix2 p k)) = aggA V c (ix2 r k)
  refine congrArg _ (funext fun a => Fin.ext ?_)
  match a with
  | ⟨0, _⟩ => show win1_0.index t (0 : Fin 2) * 5000 + 1 * p.val = r.val; rw [a0, hr]; omega
  | ⟨1, _⟩ => show win1_0.index t (1 : Fin 2) * 64 + 1 * k.val = k.val; rw [a1]; omega

/-- Row p of the block at point t is row (block index) · 5000 + p of the array. -/
theorem x_row (c : Dev nD) (t : Fin cfg1.N) (p : Fin 5000) (r : Fin 100000)
    (hr : r.val = win1_9.index t (0 : Fin 2) * 5000 + p.val) :
    (fun k : Fin 64 => blkX V c t (ix2 p k)) = fun k => xA V c (ix2 r k) := by
  obtain ⟨o0, o1, a0, a1, x0, x1, c1_0, c1_1, c3_0, c3_1, c4_0, c4_1, c5_0, c5_1, c6_0, c6_1, c7_0, c7_1, c8_0, c8_1⟩ := idx_facts t
  funext k
  show xA V c (((cfg1.win 2).blk t).view.emb (ix2 p k)) = xA V c (ix2 r k)
  refine congrArg _ (funext fun a => Fin.ext ?_)
  match a with
  | ⟨0, _⟩ => show win1_2.index t (0 : Fin 2) * 5000 + 1 * p.val = r.val; rw [x0, hr]; omega
  | ⟨1, _⟩ => show win1_2.index t (1 : Fin 2) * 64 + 1 * k.val = k.val; rw [x1]; omega

/-! ## The write-back, the cover, the array -/

/-- What the result array holds after the region: every node's update, from the arrays the region found. -/
def G1 (c : Dev nD) : S100000x2.Idx → EReal :=
  Cert.Spec.result (aggA V c) (xA V c) (fun k => bgA V c (ix2 (0 : Fin 1) k)) (w1A V c) (fun k => b1A V c (ix2 (0 : Fin 1) k))
    (w2A V c) (fun k => b2A V c (ix2 (0 : Fin 1) k)) (w3A V c) (fun k => b3A V c (ix2 (0 : Fin 1) k))

/-- WHAT POINT t WRITES BACK is block t of `G1`. -/
theorem flushed_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz]
  simp only [View.ld_unit_zero (S := S5000x64) hz, View.ld_unit_zero (S := S1x64) hz, View.ld_unit_zero (S := S64x32) hz,
    View.ld_unit_zero (S := S1x32) hz, View.ld_unit_zero (S := S32x32) hz, View.ld_unit_zero (S := S32x2) hz, View.ld_unit_zero (S := S1x2) hz]
  funext j
  have hj0 : (j 0).val < 5000 := (j 0).isLt
  have hj1 : (j 1).val < 2 := (j 1).isLt
  obtain ⟨p, hp⟩ : ∃ p : Fin 5000, p.val = (j 0).val := ⟨⟨_, hj0⟩, rfl⟩
  obtain ⟨q, hq⟩ : ∃ q : Fin 2, q.val = (j 1).val := ⟨⟨_, hj1⟩, rfl⟩
  have e : (win1 9).xinj (grid1.coords t) j = ix2 p q := funext fun a => Fin.ext (by
    match a with
    | ⟨0, _⟩ => exact hp.symm
    | ⟨1, _⟩ => exact hq.symm)
  show k1_pay1 (F := Ideal) (k1_pay2 (F := Ideal) (blkAgg V c t) (blkBg V c t) (blkX V c t) (blkW1 V c t) (blkB1 V c t) (blkW2 V c t) (blkB2 V c t) (blkW3 V c t)) (blkB3 V c t)
    ((win1 9).xinj (grid1.coords t) j) = _
  rw [e, pay_apply]
  obtain ⟨o0, o1, a0, a1, x0, x1, c1_0, c1_1, c3_0, c3_1, c4_0, c4_1, c5_0, c5_1, c6_0, c6_1, c7_0, c7_1, c8_0, c8_1⟩ := idx_facts t
  have hN : cfg1.N = 20 := N_1
  have ht : t.val < 20 := hN ▸ t.isLt
  have hlt : win1_9.index t (0 : Fin 2) * 5000 + p.val < 100000 := by rw [o0]; have := p.isLt; omega
  obtain ⟨r, hr⟩ : ∃ r : Fin 100000, r.val = win1_9.index t (0 : Fin 2) * 5000 + p.val := ⟨⟨_, hlt⟩, rfl⟩
  have eo : ((cfg1.win 9).blk t).view.emb j = ix2 r q := funext fun a => Fin.ext (by
    match a with
    | ⟨0, _⟩ => show win1_9.index t (0 : Fin 2) * 5000 + 1 * (j 0).val = r.val; rw [hr, hp]; omega
    | ⟨1, _⟩ => show win1_9.index t (1 : Fin 2) * 2 + 1 * (j 1).val = q.val; rw [o1, hq]; omega)
  show _ = G1 V c (((cfg1.win 9).blk t).view.emb j)
  rw [eo, agg_row V c t p r hr, x_row V c t p r hr, blkBg_eq, blkW1_eq, blkB1_eq, blkW2_eq, blkB2_eq, blkW3_eq, blkB3_eq]
  rfl

/-- An index of the array is in point t's block iff each coordinate is in the block's range on its axis. -/
theorem mem_blk (t : Fin cfg1.N) (i : S100000x2.Idx) :
    i ∈ ((cfg1.win 9).blk t).view.set ↔ ∀ a : Fin 2, win1_9.index t a * S5000x2.size a ≤ (i a).val ∧ (i a).val < win1_9.index t a * S5000x2.size a + S5000x2.size a := by
  show i ∈ ((View.whole main_v45).slice (win1_9.rect t)).set ↔ _
  rw [View.set_slice_whole, Rect.mem_set_unit]
  exact Iff.rfl

/-- The twenty row blocks tile the array: row r lies in block r / 5000. -/
theorem cover (i : S100000x2.Idx) : ∃ t : Fin cfg1.N, (cfg1.win 9).flush t = true ∧ i ∈ ((cfg1.win 9).blk t).view.set := by
  have hi0 : (i 0).val < 100000 := (i 0).isLt
  have hi1 : (i 1).val < 2 := (i 1).isLt
  have hN : cfg1.N = 20 := N_1
  have ht : (i 0).val / 5000 < cfg1.N := by rw [hN]; omega
  refine ⟨⟨(i 0).val / 5000, ht⟩, flush1_9 _, ?_⟩
  rw [mem_blk]
  have f0 := (idx_facts ⟨(i 0).val / 5000, ht⟩).1
  have f1 := (idx_facts ⟨(i 0).val / 5000, ht⟩).2.1
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win1_9.index ⟨(i 0).val / 5000, ht⟩ (1 : Fin 2) * 2 ≤ (i 1).val ∧ (i 1).val < win1_9.index ⟨(i 0).val / 5000, ht⟩ (1 : Fin 2) * 2 + 2
    rw [f1]; omega

/-- After the second region the result array holds every node's update, from the arrays the region found. -/
theorem final (c : Dev nD) : (dat1 V c).arrAt 9 cfg1.N = G1 V c :=
  (dat1 V c).arrAt_eq_of_cover 9 _ (fun t _ => flushed_eq V c t) cover

end Cert.KernelIdeal.Region1

end
-- ==== Proof.Mid.lean ====
/-
  The host operations around the two kernel regions, as functions of what they read.

  Before the first region the edge list is split into its source row and its target row, each extended by the
  self loops 0 … 99999. Between the regions the neighbourhood sum is formed: node numbers below zero count from
  the end (jnp's indexing), the degree of a node is the number of edges that end in it, an edge's coefficient is
  deg(src)^(-1/2) · deg(dst)^(-1/2), each edge carries its source's projected features times its coefficient, and
  the carried rows are added up at their targets. The aggregate is ONE function `agg` of the projected features
  and the two index rows: the reference applies the same operations, so the proof never opens it. The four bias
  rows are reshaped to one-row matrices, and no operation writes an argument.
-/
import proofs.«116313_j12884901888485_1_alg».proof.Proof.Gen.KernelIdeal.Launch
import Idealize.ShloMosaic.Lib.StableHlo.Run

set_option maxRecDepth 16384

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F]

/-- The source row of the edge list followed by the self loops. -/
def srcOf (ei : (⟨S2x1200000, .i32⟩ : BufTy).Contents (Elt F)) : (⟨S1300000, .i32⟩ : BufTy).Contents (Elt F) :=
  concatenate S1300000 0 [⟨S1200000, shapeCast _ (extractStridedSlice S1x1200000 ![0, 0] ei slices_S2x1200000_S1x1200000_0_0) shapeCasts_S1x1200000_S1200000⟩,
    ⟨S100000, iotaInDim S100000 32 0⟩] concatenates_S1200000_S100000_S1300000_d0

/-- The target row of the edge list followed by the self loops. -/
def dstOf (ei : (⟨S2x1200000, .i32⟩ : BufTy).Contents (Elt F)) : (⟨S1300000, .i32⟩ : BufTy).Contents (Elt F) :=
  concatenate S1300000 0 [⟨S1200000, shapeCast _ (extractStridedSlice S1x1200000 ![1, 0] ei slices_S2x1200000_S1x1200000_1_0) shapeCasts_S1x1200000_S1200000⟩,
    ⟨S100000, iotaInDim S100000 32 0⟩] concatenates_S1200000_S100000_S1300000_d0

/-- A node number below zero counts from the end. -/
def wrap (idx : (⟨S1300000, .i32⟩ : BufTy).Contents (Elt F)) : (⟨S1300000, .i32⟩ : BufTy).Contents (Elt F) :=
  select (cmpi .slt idx (broadcastInDim S1300000 ![] bcast_S_S1300000 (constantI S_ 32 0#32)))
    (addi idx (broadcastInDim S1300000 ![] bcast_S_S1300000 (constantI S_ 32 100000#32))) idx

/-- The number of edges ending in each node. -/
def deg (dst : (⟨S1300000, .i32⟩ : BufTy).Contents (Elt F)) : (⟨S100000, .f32⟩ : BufTy).Contents (Elt F) :=
  Host.scatterAdd scatter_S100000_S1300000x1_S1300000_n_0_0_1 (broadcastInDim S100000 ![] bcast_S_S100000 (constant S_ .f32 0x00000000#32))
    (broadcastInDim S1300000x1 ![0] bcast_S1300000_S1300000x1_0 dst) (broadcastInDim S1300000 ![] bcast_S_S1300000 (constant S_ .f32 0x3F800000#32))

/-- An edge's coefficient: the inverse square roots of its two ends' degrees, multiplied. -/
def coef (src dst : (⟨S1300000, .i32⟩ : BufTy).Contents (Elt F)) : (⟨S1300000, .f32⟩ : BufTy).Contents (Elt F) :=
  mulf (Host.gather gather_S100000_S1300000x1_S1300000_n_0_n_n_0_1_1 (Host.rsqrt (deg dst)) (broadcastInDim S1300000x1 ![0] bcast_S1300000_S1300000x1_0 (wrap src)))
    (Host.gather gather_S100000_S1300000x1_S1300000_n_0_n_n_0_1_1 (Host.rsqrt (deg dst)) (broadcastInDim S1300000x1 ![0] bcast_S1300000_S1300000x1_0 (wrap dst)))

/-- The neighbourhood sum: each edge's source row of `h` times the edge's coefficient, added up at the edge's target. -/
def agg (h : (⟨S100000x64, .f32⟩ : BufTy).Contents (Elt F)) (src dst : (⟨S1300000, .i32⟩ : BufTy).Contents (Elt F)) : (⟨S100000x64, .f32⟩ : BufTy).Contents (Elt F) :=
  Host.scatterAdd scatter_S100000x64_S1300000x1_S1300000x64_1_0_0_1 (broadcastInDim S100000x64 ![] bcast_S_S100000x64 (constant S_ .f32 0x00000000#32))
    (broadcastInDim S1300000x1 ![0] bcast_S1300000_S1300000x1_0 dst)
    (mulf (Host.gather gather_S100000x64_S1300000x1_S1300000x64_1_0_n_n_0_1_164 h (broadcastInDim S1300000x1 ![0] bcast_S1300000_S1300000x1_0 (wrap src)))
      (broadcastInDim S1300000x64 ![0, 1] bcast_S1300000x1_S1300000x64_0_1 (broadcastInDim S1300000x1 ![0] bcast_S1300000_S1300000x1_0 (coef src dst))))

variable (U : Valuation τ sig (Elt F))

/-! ## After the operations before the first region -/

theorem pre_src : StableHlo.after hostOps0 U (Proc.devRef .tc main_v3) = srcOf (U (Proc.devRef .tc main_arg1)) := by
  after_results; rfl
theorem pre_dst : StableHlo.after hostOps0 U (Proc.devRef .tc main_v6) = dstOf (U (Proc.devRef .tc main_arg1)) := by
  after_results; rfl
theorem pre_main_arg0 : StableHlo.after hostOps0 U (Proc.devRef .tc main_arg0) = U (Proc.devRef .tc main_arg0) := by
  after_results
theorem pre_main_arg1 : StableHlo.after hostOps0 U (Proc.devRef .tc main_arg1) = U (Proc.devRef .tc main_arg1) := by
  after_results
theorem pre_main_arg2 : StableHlo.after hostOps0 U (Proc.devRef .tc main_arg2) = U (Proc.devRef .tc main_arg2) := by
  after_results
theorem pre_main_arg3 : StableHlo.after hostOps0 U (Proc.devRef .tc main_arg3) = U (Proc.devRef .tc main_arg3) := by
  after_results
theorem pre_main_arg4 : StableHlo.after hostOps0 U (Proc.devRef .tc main_arg4) = U (Proc.devRef .tc main_arg4) := by
  after_results
theorem pre_main_arg5 : StableHlo.after hostOps0 U (Proc.devRef .tc main_arg5) = U (Proc.devRef .tc main_arg5) := by
  after_results
theorem pre_main_arg6 : StableHlo.after hostOps0 U (Proc.devRef .tc main_arg6) = U (Proc.devRef .tc main_arg6) := by
  after_results
theorem pre_main_arg7 : StableHlo.after hostOps0 U (Proc.devRef .tc main_arg7) = U (Proc.devRef .tc main_arg7) := by
  after_results
theorem pre_main_arg8 : StableHlo.after hostOps0 U (Proc.devRef .tc main_arg8) = U (Proc.devRef .tc main_arg8) := by
  after_results
theorem pre_main_arg9 : StableHlo.after hostOps0 U (Proc.devRef .tc main_arg9) = U (Proc.devRef .tc main_arg9) := by
  after_results

/-! ## After the operations between the regions -/

theorem mid_agg : StableHlo.after hostOps1 U (Proc.devRef .tc main_v40)
    = agg (U (Proc.devRef .tc main_v7)) (U (Proc.devRef .tc main_v3)) (U (Proc.devRef .tc main_v6)) := by
  after_results_simp; rfl
theorem mid_bg : StableHlo.after hostOps1 U (Proc.devRef .tc main_v41) = shapeCast S1x64 (U (Proc.devRef .tc main_arg3)) shapeCasts_S64_S1x64 := by
  after_results_simp; rfl
theorem mid_b1 : StableHlo.after hostOps1 U (Proc.devRef .tc main_v42) = shapeCast S1x32 (U (Proc.devRef .tc main_arg5)) shapeCasts_S32_S1x32 := by
  after_results_simp; rfl
theorem mid_b2 : StableHlo.after hostOps1 U (Proc.devRef .tc main_v43) = shapeCast S1x32 (U (Proc.devRef .tc main_arg7)) shapeCasts_S32_S1x32 := by
  after_results_simp; rfl
theorem mid_b3 : StableHlo.after hostOps1 U (Proc.devRef .tc main_v44) = shapeCast S1x2 (U (Proc.devRef .tc main_arg9)) shapeCasts_S2_S1x2 := by
  after_results_simp; rfl
theorem mid_main_arg0 : StableHlo.after hostOps1 U (Proc.devRef .tc main_arg0) = U (Proc.devRef .tc main_arg0) := by
  after_results_simp
theorem mid_main_arg4 : StableHlo.after hostOps1 U (Proc.devRef .tc main_arg4) = U (Proc.devRef .tc main_arg4) := by
  after_results_simp
theorem mid_main_arg6 : StableHlo.after hostOps1 U (Proc.devRef .tc main_arg6) = U (Proc.devRef .tc main_arg6) := by
  after_results_simp
theorem mid_main_arg8 : StableHlo.after hostOps1 U (Proc.devRef .tc main_arg8) = U (Proc.devRef .tc main_arg8) := by
  after_results_simp

end Cert.KernelIdeal.Mid

end
-- ==== Proof.KernelValue.lean ====
/-
  The kernel program's result as one function of its arguments.

  The last boundary's contents at the result buffer are what the second region's write-backs leave: every node's
  update from the arrays that region found. Those are what the host operations between the regions leave — the
  neighbourhood sum of the first region's array and the reshaped bias rows — over what the first region leaves,
  X · W_g of the launch contents; no host operation and no region writes an argument. Reading the boundaries back
  in order gives the result as the per-node specification of the launch contents.
-/
import proofs.«116313_j12884901888485_1_alg».proof.Proof.Gen.KernelIdeal.Frame
import proofs.«116313_j12884901888485_1_alg».proof.Proof.Region0
import proofs.«116313_j12884901888485_1_alg».proof.Proof.Region1
import proofs.«116313_j12884901888485_1_alg».proof.Proof.Mid
import proofs.«116313_j12884901888485_1_alg».proof.Proof.Spec
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The neighbourhood sum the kernel's program forms, from the launch contents. -/
def aggOf (c : Dev nD) : S100000x64.Idx → EReal :=
  Mid.agg (F := Ideal) (Cert.Spec.proj (m ((c.tc : Thread nD τ).loc main_arg0)) (m ((c.tc : Thread nD τ).loc main_arg2))) (Mid.srcOf (m ((c.tc : Thread nD τ).loc main_arg1))) (Mid.dstOf (m ((c.tc : Thread nD τ).loc main_arg1)))

/-- The kernel program's result, from the launch contents. -/
def kval (c : Dev nD) : S100000x2.Idx → EReal :=
  Cert.Spec.result (aggOf m c) (m ((c.tc : Thread nD τ).loc main_arg0)) (fun k => (m ((c.tc : Thread nD τ).loc main_arg3)) (ix1 k)) (m ((c.tc : Thread nD τ).loc main_arg4)) (fun k => (m ((c.tc : Thread nD τ).loc main_arg5)) (ix1 k))
    (m ((c.tc : Thread nD τ).loc main_arg6)) (fun k => (m ((c.tc : Thread nD τ).loc main_arg7)) (ix1 k)) (m ((c.tc : Thread nD τ).loc main_arg8)) (fun k => (m ((c.tc : Thread nD τ).loc main_arg9)) (ix1 k))

/-! ## The first boundary: the launch contents, the edge rows -/

theorem V1_arg0 (c : Dev nD) : W1 m ρ c (Proc.devRef .tc main_arg0) = (m ((c.tc : Thread nD τ).loc main_arg0)) := Mid.pre_main_arg0 (W0 m ρ c)
theorem V1_arg1 (c : Dev nD) : W1 m ρ c (Proc.devRef .tc main_arg1) = (m ((c.tc : Thread nD τ).loc main_arg1)) := Mid.pre_main_arg1 (W0 m ρ c)
theorem V1_arg2 (c : Dev nD) : W1 m ρ c (Proc.devRef .tc main_arg2) = (m ((c.tc : Thread nD τ).loc main_arg2)) := Mid.pre_main_arg2 (W0 m ρ c)
theorem V1_arg3 (c : Dev nD) : W1 m ρ c (Proc.devRef .tc main_arg3) = (m ((c.tc : Thread nD τ).loc main_arg3)) := Mid.pre_main_arg3 (W0 m ρ c)
theorem V1_arg4 (c : Dev nD) : W1 m ρ c (Proc.devRef .tc main_arg4) = (m ((c.tc : Thread nD τ).loc main_arg4)) := Mid.pre_main_arg4 (W0 m ρ c)
theorem V1_arg5 (c : Dev nD) : W1 m ρ c (Proc.devRef .tc main_arg5) = (m ((c.tc : Thread nD τ).loc main_arg5)) := Mid.pre_main_arg5 (W0 m ρ c)
theorem V1_arg6 (c : Dev nD) : W1 m ρ c (Proc.devRef .tc main_arg6) = (m ((c.tc : Thread nD τ).loc main_arg6)) := Mid.pre_main_arg6 (W0 m ρ c)
theorem V1_arg7 (c : Dev nD) : W1 m ρ c (Proc.devRef .tc main_arg7) = (m ((c.tc : Thread nD τ).loc main_arg7)) := Mid.pre_main_arg7 (W0 m ρ c)
theorem V1_arg8 (c : Dev nD) : W1 m ρ c (Proc.devRef .tc main_arg8) = (m ((c.tc : Thread nD τ).loc main_arg8)) := Mid.pre_main_arg8 (W0 m ρ c)
theorem V1_arg9 (c : Dev nD) : W1 m ρ c (Proc.devRef .tc main_arg9) = (m ((c.tc : Thread nD τ).loc main_arg9)) := Mid.pre_main_arg9 (W0 m ρ c)

/-! ## The second boundary: after the first region -/

/-- The projected features' array after the first region is X · W_g of the launch contents. -/
theorem W2_h (c : Dev nD) : W2 m ρ c (Proc.devRef .tc main_v7) = Cert.Spec.proj (m ((c.tc : Thread nD τ).loc main_arg0)) (m ((c.tc : Thread nD τ).loc main_arg2)) := by
  refine (W2_arr m ρ c 2).trans ((Region0.final (V1 m ρ) c).trans ?_)
  show Cert.Spec.proj (W1 m ρ c (Proc.devRef .tc main_arg0)) (W1 m ρ c (Proc.devRef .tc main_arg2)) = _
  rw [V1_arg0, V1_arg2]

theorem W2_src (c : Dev nD) : W2 m ρ c (Proc.devRef .tc main_v3) = Mid.srcOf (m ((c.tc : Thread nD τ).loc main_arg1)) :=
  (W2_of_ne m ρ c main_v3 (by decide)).trans ((Mid.pre_src (W0 m ρ c)).trans rfl)
theorem W2_dst (c : Dev nD) : W2 m ρ c (Proc.devRef .tc main_v6) = Mid.dstOf (m ((c.tc : Thread nD τ).loc main_arg1)) :=
  (W2_of_ne m ρ c main_v6 (by decide)).trans ((Mid.pre_dst (W0 m ρ c)).trans rfl)
theorem W2_arg0 (c : Dev nD) : W2 m ρ c (Proc.devRef .tc main_arg0) = (m ((c.tc : Thread nD τ).loc main_arg0)) :=
  (W2_arr m ρ c 0).trans ((((dat0 (V1 m ρ) c).arrAt_in 0 rfl _).trans (A_eq0 (V1 m ρ) c 0)).trans (V1_arg0 m ρ c))
theorem W2_arg3 (c : Dev nD) : W2 m ρ c (Proc.devRef .tc main_arg3) = (m ((c.tc : Thread nD τ).loc main_arg3)) :=
  (W2_of_ne m ρ c main_arg3 (by decide)).trans (V1_arg3 m ρ c)
theorem W2_arg4 (c : Dev nD) : W2 m ρ c (Proc.devRef .tc main_arg4) = (m ((c.tc : Thread nD τ).loc main_arg4)) :=
  (W2_of_ne m ρ c main_arg4 (by decide)).trans (V1_arg4 m ρ c)
theorem W2_arg5 (c : Dev nD) : W2 m ρ c (Proc.devRef .tc main_arg5) = (m ((c.tc : Thread nD τ).loc main_arg5)) :=
  (W2_of_ne m ρ c main_arg5 (by decide)).trans (V1_arg5 m ρ c)
theorem W2_arg6 (c : Dev nD) : W2 m ρ c (Proc.devRef .tc main_arg6) = (m ((c.tc : Thread nD τ).loc main_arg6)) :=
  (W2_of_ne m ρ c main_arg6 (by decide)).trans (V1_arg6 m ρ c)
theorem W2_arg7 (c : Dev nD) : W2 m ρ c (Proc.devRef .tc main_arg7) = (m ((c.tc : Thread nD τ).loc main_arg7)) :=
  (W2_of_ne m ρ c main_arg7 (by decide)).trans (V1_arg7 m ρ c)
theorem W2_arg8 (c : Dev nD) : W2 m ρ c (Proc.devRef .tc main_arg8) = (m ((c.tc : Thread nD τ).loc main_arg8)) :=
  (W2_of_ne m ρ c main_arg8 (by decide)).trans (V1_arg8 m ρ c)
theorem W2_arg9 (c : Dev nD) : W2 m ρ c (Proc.devRef .tc main_arg9) = (m ((c.tc : Thread nD τ).loc main_arg9)) :=
  (W2_of_ne m ρ c main_arg9 (by decide)).trans (V1_arg9 m ρ c)

/-! ## The third boundary: after the host operations between the regions -/

theorem V3_agg (c : Dev nD) : W3 m ρ c (Proc.devRef .tc main_v40) = aggOf m c := by
  refine (Mid.mid_agg (W2 m ρ c)).trans ?_
  rw [W2_h, W2_src, W2_dst]
  rfl
theorem V3_x (c : Dev nD) : W3 m ρ c (Proc.devRef .tc main_arg0) = (m ((c.tc : Thread nD τ).loc main_arg0)) := (Mid.mid_main_arg0 (W2 m ρ c)).trans (W2_arg0 m ρ c)
theorem V3_w1 (c : Dev nD) : W3 m ρ c (Proc.devRef .tc main_arg4) = (m ((c.tc : Thread nD τ).loc main_arg4)) := (Mid.mid_main_arg4 (W2 m ρ c)).trans (W2_arg4 m ρ c)
theorem V3_w2 (c : Dev nD) : W3 m ρ c (Proc.devRef .tc main_arg6) = (m ((c.tc : Thread nD τ).loc main_arg6)) := (Mid.mid_main_arg6 (W2 m ρ c)).trans (W2_arg6 m ρ c)
theorem V3_w3 (c : Dev nD) : W3 m ρ c (Proc.devRef .tc main_arg8) = (m ((c.tc : Thread nD τ).loc main_arg8)) := (Mid.mid_main_arg8 (W2 m ρ c)).trans (W2_arg8 m ρ c)
theorem V3_bg (c : Dev nD) : W3 m ρ c (Proc.devRef .tc main_v41) = shapeCast S1x64 (m ((c.tc : Thread nD τ).loc main_arg3)) shapeCasts_S64_S1x64 := by
  refine (Mid.mid_bg (W2 m ρ c)).trans ?_; rw [W2_arg3]
theorem V3_b1 (c : Dev nD) : W3 m ρ c (Proc.devRef .tc main_v42) = shapeCast S1x32 (m ((c.tc : Thread nD τ).loc main_arg5)) shapeCasts_S32_S1x32 := by
  refine (Mid.mid_b1 (W2 m ρ c)).trans ?_; rw [W2_arg5]
theorem V3_b2 (c : Dev nD) : W3 m ρ c (Proc.devRef .tc main_v43) = shapeCast S1x32 (m ((c.tc : Thread nD τ).loc main_arg7)) shapeCasts_S32_S1x32 := by
  refine (Mid.mid_b2 (W2 m ρ c)).trans ?_; rw [W2_arg7]
theorem V3_b3 (c : Dev nD) : W3 m ρ c (Proc.devRef .tc main_v44) = shapeCast S1x2 (m ((c.tc : Thread nD τ).loc main_arg9)) shapeCasts_S2_S1x2 := by
  refine (Mid.mid_b3 (W2 m ρ c)).trans ?_; rw [W2_arg9]

/-! ## The last boundary: the result -/

/-- THE KERNEL PROGRAM'S RESULT: the last boundary's contents at the result buffer are `kval` of the launch contents. -/
theorem value (c : Dev nD) : W4 m ρ c (Proc.devRef .tc main_v45) = kval m c := by
  refine (W4_arr m ρ c 9).trans ((Region1.final (V3 m ρ) c).trans ?_)
  show Cert.Spec.result (W3 m ρ c (Proc.devRef .tc main_v40)) (W3 m ρ c (Proc.devRef .tc main_arg0))
      (fun k => W3 m ρ c (Proc.devRef .tc main_v41) (ix2 (0 : Fin 1) k)) (W3 m ρ c (Proc.devRef .tc main_arg4))
      (fun k => W3 m ρ c (Proc.devRef .tc main_v42) (ix2 (0 : Fin 1) k)) (W3 m ρ c (Proc.devRef .tc main_arg6))
      (fun k => W3 m ρ c (Proc.devRef .tc main_v43) (ix2 (0 : Fin 1) k)) (W3 m ρ c (Proc.devRef .tc main_arg8))
      (fun k => W3 m ρ c (Proc.devRef .tc main_v44) (ix2 (0 : Fin 1) k)) = _
  rw [V3_agg, V3_x, V3_w1, V3_w2, V3_w3, V3_bg, V3_b1, V3_b2, V3_b3]
  unfold kval
  simp only [shapeCast_a_1a_apply]

end Cert.KernelIdeal.Whole

end
-- ==== Proof.RefSide.lean ====
/-
  The reference's side: its result is the per-node specification of the arguments.

  The reference's generated run ends with the composed term of its host operations; read one operation at a
  time (the generated read-at-an-index lemmas), element (r, j) of the result is the node update of row r: the
  three `dot_general`s are sums over the contracted axis, the broadcast bias rows read their one entry per
  column, and jax's outlined `relu` is the maximum with zero. The neighbourhood sum stays the one function of
  the projected features and the index rows that the kernel's program also applies, and the projected features
  X · W_g are the same sum form as the kernel's first region leaves.
-/
import proofs.«116313_j12884901888485_1_alg».proof.Proof.Gen.ReferenceIdeal.Run
import proofs.«116313_j12884901888485_1_alg».proof.Proof.Gen.ReferenceIdeal.Read
import proofs.«116313_j12884901888485_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The printed index functions at coordinates -/

theorem l27 (r : Fin 100000) (j : Fin 64) (k : Fin 64) : lidx_main_v27 (ix2 r j) k = ix2 r k :=
  funext fun a => Fin.ext (by match a with | ⟨0, _⟩ => rfl | ⟨1, _⟩ => rfl)
theorem r27 (r : Fin 100000) (j : Fin 64) (k : Fin 64) : ridx_main_v27 (ix2 r j) k = ix2 k j :=
  funext fun a => Fin.ext (by match a with | ⟨0, _⟩ => rfl | ⟨1, _⟩ => rfl)
theorem l46 (r : Fin 100000) (j : Fin 32) (k : Fin 64) : lidx_main_v46 (ix2 r j) k = ix2 r k :=
  funext fun a => Fin.ext (by match a with | ⟨0, _⟩ => rfl | ⟨1, _⟩ => rfl)
theorem r46 (r : Fin 100000) (j : Fin 32) (k : Fin 64) : ridx_main_v46 (ix2 r j) k = ix2 k j :=
  funext fun a => Fin.ext (by match a with | ⟨0, _⟩ => rfl | ⟨1, _⟩ => rfl)
theorem l51 (r : Fin 100000) (j : Fin 32) (k : Fin 32) : lidx_main_v51 (ix2 r j) k = ix2 r k :=
  funext fun a => Fin.ext (by match a with | ⟨0, _⟩ => rfl | ⟨1, _⟩ => rfl)
theorem r51 (r : Fin 100000) (j : Fin 32) (k : Fin 32) : ridx_main_v51 (ix2 r j) k = ix2 k j :=
  funext fun a => Fin.ext (by match a with | ⟨0, _⟩ => rfl | ⟨1, _⟩ => rfl)
theorem l56 (r : Fin 100000) (j : Fin 2) (k : Fin 32) : lidx_main_v56 (ix2 r j) k = ix2 r k :=
  funext fun a => Fin.ext (by match a with | ⟨0, _⟩ => rfl | ⟨1, _⟩ => rfl)
theorem r56 (r : Fin 100000) (j : Fin 2) (k : Fin 32) : ridx_main_v56 (ix2 r j) k = ix2 k j :=
  funext fun a => Fin.ext (by match a with | ⟨0, _⟩ => rfl | ⟨1, _⟩ => rfl)

theorem bias42 (r : Fin 100000) (k : Fin 64) : idx_main_v41 (idx_main_v42 (ix2 r k)) = ix1 k :=
  funext fun a => Fin.ext (by match a with | ⟨0, _⟩ => rfl)
theorem bias48 (r : Fin 100000) (k : Fin 32) : idx_main_v47 (idx_main_v48 (ix2 r k)) = ix1 k :=
  funext fun a => Fin.ext (by match a with | ⟨0, _⟩ => rfl)
theorem bias53 (r : Fin 100000) (k : Fin 32) : idx_main_v52 (idx_main_v53 (ix2 r k)) = ix1 k :=
  funext fun a => Fin.ext (by match a with | ⟨0, _⟩ => rfl)
theorem bias58 (r : Fin 100000) (k : Fin 2) : idx_main_v57 (idx_main_v58 (ix2 r k)) = ix1 k :=
  funext fun a => Fin.ext (by match a with | ⟨0, _⟩ => rfl)

variable (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x2, .f32⟩ : BufTy).Contents (Elt Ideal)) (x9 : (⟨S2, .f32⟩ : BufTy).Contents (Elt Ideal))

/-! ## The projected features -/

/-- The reference's `dot_general` of the features and the convolution's weights is X · W_g, index by index. -/
theorem proj_eq : val_main_v27 (F := Ideal) x0 x2 = Cert.Spec.proj x0 x2 := by
  funext i
  obtain ⟨r, j, rfl⟩ : ∃ (r : Fin 100000) (j : Fin 64), i = ix2 r j := ⟨i 0, i 1, eq_ix2 i⟩
  rw [val_main_v27_apply]
  simp only [l27, r27]
  rfl

/-! ## The layers, at an index -/

/-- The perceptron's input at (r, k): the rectified aggregate-plus-bias, plus the residual. -/
theorem h0_apply (r : Fin 100000) (k : Fin 64) :
    val_main_v45 (F := Ideal) x0 x1 x2 x3 (ix2 r k)
      = Cert.Spec.relu (val_main_v40 (F := Ideal) x0 x1 x2 (ix2 r k) + x3 (ix1 k)) + x0 (ix2 r k) := by
  rw [val_main_v45_apply, val_main_v44_apply, val_main_v43_apply, val_main_v42_apply, val_main_v41_apply,
    val_main_call0_v0_apply, val_main_call0_cst_apply, bias42]
  simp only [Ideal.addf_def, Ideal.maximumf_def, Ideal.ofBits_def, Ideal.ofBits_zero_f32]
  rfl

/-- The first hidden layer at (r, j). -/
theorem h1_apply (r : Fin 100000) (j : Fin 32) :
    val_main_v50 (F := Ideal) x0 x1 x2 x3 x4 x5 (ix2 r j)
      = Cert.Spec.relu (Cert.Spec.dense (fun k => val_main_v45 (F := Ideal) x0 x1 x2 x3 (ix2 r k)) x4 (fun k => x5 (ix1 k)) j) := by
  rw [val_main_v50_apply, val_main_v49_apply, val_main_v46_apply, val_main_v48_apply, val_main_v47_apply,
    val_main_call1_v0_apply, val_main_call1_cst_apply, bias48]
  simp only [l46, r46, Ideal.addf_def, Ideal.maximumf_def, Ideal.ofBits_def, Ideal.ofBits_zero_f32]
  rfl

/-- The second hidden layer at (r, j). -/
theorem h2_apply (r : Fin 100000) (j : Fin 32) :
    val_main_v55 (F := Ideal) x0 x1 x2 x3 x4 x5 x6 x7 (ix2 r j)
      = Cert.Spec.relu (Cert.Spec.dense (fun k => val_main_v50 (F := Ideal) x0 x1 x2 x3 x4 x5 (ix2 r k)) x6 (fun k => x7 (ix1 k)) j) := by
  rw [val_main_v55_apply, val_main_v54_apply, val_main_v51_apply, val_main_v53_apply, val_main_v52_apply,
    val_main_call2_v0_apply, val_main_call2_cst_apply, bias53]
  simp only [l51, r51, Ideal.addf_def, Ideal.maximumf_def, Ideal.ofBits_def, Ideal.ofBits_zero_f32]
  rfl

/-- The output layer at (r, j). -/
theorem out_apply (r : Fin 100000) (j : Fin 2) :
    val_main_v59 (F := Ideal) x0 x1 x2 x3 x4 x5 x6 x7 x8 x9 (ix2 r j)
      = Cert.Spec.dense (fun k => val_main_v55 (F := Ideal) x0 x1 x2 x3 x4 x5 x6 x7 (ix2 r k)) x8 (fun k => x9 (ix1 k)) j := by
  rw [val_main_v59_apply, val_main_v56_apply, val_main_v58_apply, val_main_v57_apply, bias58]
  simp only [l56, r56, Ideal.addf_def]
  rfl

/-- THE REFERENCE'S RESULT is every node's update, from the neighbourhood sum it forms and its arguments. -/
theorem result_eq :
    val_main_v59 (F := Ideal) x0 x1 x2 x3 x4 x5 x6 x7 x8 x9
      = Cert.Spec.result (val_main_v40 (F := Ideal) x0 x1 x2) x0 (fun k => x3 (ix1 k)) x4 (fun k => x5 (ix1 k)) x6
          (fun k => x7 (ix1 k)) x8 (fun k => x9 (ix1 k)) := by
  funext i
  obtain ⟨r, j, rfl⟩ : ∃ (r : Fin 100000) (j : Fin 2), i = ix2 r j := ⟨i 0, i 1, eq_ix2 i⟩
  rw [out_apply]
  unfold Cert.Spec.result
  rw [Cert.Spec.arr2_ix2]
  unfold Cert.Spec.node
  simp only [h2_apply, h1_apply, h0_apply]

end Cert.ReferenceIdeal.RefValue

end
-- ==== Proof.Bridge.lean ====
/-
  The two programs meet: the reference's neighbourhood sum is the kernel program's function `agg`.

  Both programs apply the same host operations — the self loops appended to the edge rows, jnp's wrap of node
  numbers below zero, the degree count, the inverse square roots gathered at both ends of each edge, the gather of
  source rows, their scaling, the scatter-add at the targets — so the reference's stage for the aggregate is, by
  unfolding the stage definitions, the kernel program's `agg` of the reference's projected features and of the
  same two index rows. With the projected features the same sum form on both sides, the reference's result is
  the kernel program's result of arguments that agree.
-/
import proofs.«116313_j12884901888485_1_alg».proof.Proof.RefSide
import proofs.«116313_j12884901888485_1_alg».proof.Proof.Mid

set_option maxRecDepth 16384

noncomputable section

namespace Cert.Bridge

open Idealize.ShloMosaic Idealize.ShloMosaic.TcCoe Idealize.SL.Sem Idealize.ShloMosaic.ValueIdx
open Cert.ReferenceIdeal.Read

variable (x0 : (⟨Cert.ReferenceIdeal.S100000x64, .f32⟩ : BufTy).Contents (Elt Ideal)) (x1 : (⟨Cert.ReferenceIdeal.S2x1200000, .i32⟩ : BufTy).Contents (Elt Ideal)) (x2 : (⟨Cert.ReferenceIdeal.S64x64, .f32⟩ : BufTy).Contents (Elt Ideal))

/-- The reference's source row with the self loops is the kernel program's. -/
theorem src_eq : val_main_v3 (F := Ideal) x1 = Cert.KernelIdeal.Mid.srcOf (F := Ideal) x1 := rfl

/-- The reference's target row with the self loops is the kernel program's. -/
theorem dst_eq : val_main_v6 (F := Ideal) x1 = Cert.KernelIdeal.Mid.dstOf (F := Ideal) x1 := rfl

/-- The reference's neighbourhood sum is the kernel program's `agg` of the reference's projected features. -/
theorem agg_eq : val_main_v40 (F := Ideal) x0 x1 x2
    = Cert.KernelIdeal.Mid.agg (F := Ideal) (val_main_v27 (F := Ideal) x0 x2) (Cert.KernelIdeal.Mid.srcOf (F := Ideal) x1)
        (Cert.KernelIdeal.Mid.dstOf (F := Ideal) x1) := rfl

end Cert.Bridge

end
-- ==== Proof.lean ====
/-
  The certificate of the graph-convolution actor: a Pallas kernel program of two TensorCore regions (X · W_g, then
  the residual and a three-layer perceptron) with jnp's gather and scatter-add between them, against the plain jnp
  reference, over the extended reals.

  At the ideal instance both programs compute, for node r and output channel j,
      dense₃ (relu (dense₂ (relu (dense₁ (relu (agg r + b_g) + X r)))))  at j,
  with agg the degree-normalised neighbourhood sum of X · W_g. The kernel's matrix products are sums over the
  contracted axis (the bf16 format changes are the identity, the accumulators zero) exactly as the reference's
  `dot_general`s; the neighbourhood sum is the same host operations in both programs and is never opened. No
  algebraic law beyond the definitions is used, so the precondition (finite inputs) is not opened either.

  The kernel program's frames are the generated ones; its run with the result array named in the post is
  Proof/RunNamed.lean; what each region leaves in its output array is read off the frame's proof data
  block by block (Proof/Region0.lean, Proof/Region1.lean), the host operations around them as functions of what
  they read (Proof/Mid.lean), and the boundaries back to the launch contents (Proof/KernelValue.lean). The
  reference's run and its read-at-an-index lemmas are generated; its result is the same per-node function
  (Proof/RefSide.lean, Proof/Bridge.lean).
-/
import proofs.«116313_j12884901888485_1_alg».proof.Defs
import proofs.«116313_j12884901888485_1_alg».proof.Proof.Gen.Kernel
import proofs.«116313_j12884901888485_1_alg».proof.Proof.Gen.Kernel.Frame
import proofs.«116313_j12884901888485_1_alg».proof.Proof.Gen.KernelIdeal
import proofs.«116313_j12884901888485_1_alg».proof.Proof.Gen.KernelIdeal.Frame
import proofs.«116313_j12884901888485_1_alg».proof.Proof.Gen.ReferenceIdeal
import proofs.«116313_j12884901888485_1_alg».proof.Proof.Gen.ReferenceIdeal.Run
import proofs.«116313_j12884901888485_1_alg».proof.Proof.Gen.ReferenceIdeal.Read
import proofs.«116313_j12884901888485_1_alg».proof.Proof.Gen.Pre_finite_inputs
import proofs.«116313_j12884901888485_1_alg».proof.Proof.RunNamed
import proofs.«116313_j12884901888485_1_alg».proof.Proof.KernelValue
import proofs.«116313_j12884901888485_1_alg».proof.Proof.RefSide
import proofs.«116313_j12884901888485_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the ledger is empty. -/
theorem preserves : Cert.preserves_Kernel_KernelIdeal := trivial

/-- From memories agreeing on the arguments both programs end with the per-node function of the arguments in
    their result arrays: the kernel program by its run read back through its boundaries, the reference by its
    generated run read one operation at a time, the neighbourhood sum one function on both sides. -/
theorem algebraic : Cert.algebraic_KernelIdeal_ReferenceIdeal := by
  intro m ρ m' ρ' _ hagree
  refine ⟨fun c => Cert.KernelIdeal.Whole.kval m c, ?_, ?_⟩
  · exact (θ_run Cert.KernelIdeal.defs _ _).mono
      (fun _ h c => ⟨(h c).1.trans (Cert.KernelIdeal.Whole.value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v59_eq, Cert.ReferenceIdeal.RefValue.result_eq, Cert.Bridge.agg_eq,
      Cert.ReferenceIdeal.RefValue.proj_eq, a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
